-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S2x128 : Shape := ⟨2, ![2, 128]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S1000000x128 .f32) (main_arg1 : FVec F S2x128 .f32) (main_arg2 : IVec S1000000 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg2 main_v9
  let main_c_3 : IVec S_ 32 := constantI S_ 32 2#32
  let main_v11 : IVec S1000000 32 := broadcastInDim S1000000 ![] bcast_S_S1000000 main_c_3
  let main_v12 : IVec S1000000 1 := cmpi .slt main_arg2 main_v11
  let main_v13 : IVec S1000000 1 := andi main_v10 main_v12
  let main_c_4 : IVec S_ 1 := constantI S_ 1 1#1
  let main_v14 : IVec S_ 1 := (fun x v => Host.reduce IntOp.andi x v reducesTo_S1000000_S_d0 h_S_) main_v13 main_c_4
  let main_v15 : IVec S_ 1 := andi main_v8 main_v14
  main_v15
-- ==== Kernel.lean ====
abbrev S1000000x128 : Shape := ⟨2, ![1000000, 128]⟩
abbrev S2x128 : Shape := ⟨2, ![2, 128]⟩
abbrev S1000000 : Shape := ⟨1, ![1000000]⟩
abbrev S1000000x1 : Shape := ⟨2, ![1000000, 1]⟩
abbrev S50x1x2 : Shape := ⟨3, ![50, 1, 2]⟩
abbrev S20000x128 : Shape := ⟨2, ![20000, 128]⟩
abbrev S20000x1 : Shape := ⟨2, ![20000, 1]⟩
abbrev S1x1x2 : Shape := ⟨3, ![1, 1, 2]⟩
abbrev S1x128 : Shape := ⟨2, ![1, 128]⟩
abbrev S20000 : Shape := ⟨1, ![20000]⟩
abbrev S1 : Shape := ⟨1, ![1]⟩
abbrev S1x1 : Shape := ⟨2, ![1, 1]⟩
abbrev S1x1x1 : Shape := ⟨3, ![1, 1, 1]⟩
abbrev S50x1x1 : Shape := ⟨3, ![50, 1, 1]⟩
abbrev S50 : Shape := ⟨1, ![50]⟩
abbrev S_ : Shape := ⟨0, ![]⟩

abbrev nBuf : Space → Nat
  | .hbm => 31
  | .vmem => 7
  | .smem => 0
  | _ => 0

abbrev bufTy : (tb : Table) → Fin (tcTables nBuf tb) → BufTy
  | .hbm, ⟨0, _⟩ => ⟨S1000000x128, .f32⟩
  | .hbm, ⟨1, _⟩ => ⟨S2x128, .f32⟩
  | .hbm, ⟨2, _⟩ => ⟨S1000000, .i32⟩
  | .hbm, ⟨3, _⟩ => ⟨S1000000x1, .i32⟩
  | .hbm, ⟨4, _⟩ => ⟨S50x1x2, .f32⟩
  | .hbm, ⟨5, _⟩ => ⟨S50x1x1, .f32⟩
  | .hbm, ⟨6, _⟩ => ⟨S50, .f32⟩
  | .hbm, ⟨7, _⟩ => ⟨S_, .f32⟩
  | .hbm, ⟨8, _⟩ => ⟨S_, .f32⟩
  | .hbm, ⟨9, _⟩ => ⟨S50x1x1, .f32⟩
  | .hbm, ⟨10, _⟩ => ⟨S50, .f32⟩
  | .hbm, ⟨11, _⟩ => ⟨S_, .f32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S20000x128, .f32⟩
  | .local _ .vmem, ⟨1, _⟩ => ⟨S20000x128, .f32⟩
  | .local _ .vmem, ⟨2, _⟩ => ⟨S20000x1, .i32⟩
  | .local _ .vmem, ⟨3, _⟩ => ⟨S20000x1, .i32⟩
  | .local _ .vmem, ⟨4, _⟩ => ⟨S2x128, .f32⟩
  | .local _ .vmem, ⟨5, _⟩ => ⟨S1x1x2, .f32⟩
  | .local _ .vmem, ⟨6, _⟩ => ⟨S1x1x2, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_call0_v0 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1000000_S1000000x1 : S1000000.ShapeCasts S1000000x1
  inb_S20000x128_S20000x128_0_0 : ∀ a, (![0, 0] : Fin 2 → Nat) a + S20000x128.size a ≤ S20000x128.size a
  h_S20000x128 : 0 < S20000x128.numel
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  inb_S2x128_S2x128_0_0 : ∀ a, (![0, 0] : Fin 2 → Nat) a + S2x128.size a ≤ S2x128.size a
  h_S2x128 : 0 < S2x128.numel
  slices_S2x128_o0_0_S1x128 : S2x128.Slices ![0, 0] S1x128
  slices_S2x128_o1_0_S1x128 : S2x128.Slices ![1, 0] S1x128
  broadcasts_S1x128_S20000x128 : S1x128.Broadcasts S20000x128
  reduces_S20000x128_S20000 : S20000x128.Reduces [1] S20000
  shapeCasts_S20000_S20000x1 : S20000.ShapeCasts S20000x1
  reduces_S20000x1_S1 : S20000x1.Reduces [0] S1
  shapeCasts_S1_S1x1 : S1.ShapeCasts S1x1
  shapeCasts_S1x1_S1x1x1 : S1x1.ShapeCasts S1x1x1
  inb_S1x1x2_S1x1x1_0_0_0 : ∀ a, (![0, 0, 0] : Fin 3 → Nat) a + S1x1x1.size a ≤ S1x1x2.size a
  h_S1x1x1 : 0 < S1x1x1.numel
  inb_S1x1x2_S1x1x1_0_0_1 : ∀ a, (![0, 0, 1] : Fin 3 → Nat) a + S1x1x1.size a ≤ S1x1x2.size a
  slices_S50x1x2_S50x1x1_0_0_0 : S50x1x2.Slices ![0, 0, 0] S50x1x1
  shapeCasts_S50x1x1_S50 : S50x1x1.ShapeCasts S50
  reducesTo_S50_S_d0 : S50.ReducesTo [0] S_
  h_S_ : 0 < S_.numel
  slices_S50x1x2_S50x1x1_0_0_1 : S50x1x2.Slices ![0, 0, 1] S50x1x1
  reducesTo_S1000000_S_d0 : S1000000.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S1000000x128.size a
  hwx0_0 : ∀ i : grid0.Coords, EltTy.bits .f32 = 32 ∨ (Rect.block (s := S1000000x128) S20000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S1000000x1.size a
  hwx0_1 : ∀ i : grid0.Coords, EltTy.bits .i32 = 32 ∨ (Rect.block (s := S1000000x1) S20000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2.size a ≤ S50x1x2.size a
  hwx0_3 : ∀ i : grid0.Coords, EltTy.bits .f32 = 32 ∨ (Rect.block (s := S50x1x2) S1x1x2.size (cc0_transform_3 i) (hinb0_3 i)).WholeWords (EltTy.packing .f32)

variable [Facts₀]

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S2x128 : Shape := ⟨2, ![2, 128]⟩
abbrev S1000000 : Shape := ⟨1, ![1000000]⟩
abbrev S_ : Shape := ⟨0, ![]⟩
abbrev S1000000x1 : Shape := ⟨2, ![1000000, 1]⟩
abbrev S2 : Shape := ⟨1, ![2]⟩

abbrev nBuf : Space → Nat
  | .hbm => 47
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S2x128, .f32⟩
  | .hbm, ⟨2, _⟩ => ⟨S1000000, .i32⟩
  | .hbm, ⟨3, _⟩ => ⟨S_, .i32⟩
  | .hbm, ⟨4, _⟩ => ⟨S1000000, .i32⟩
  | .hbm, ⟨5, _⟩ => ⟨S1000000, .i1⟩
  | .hbm, ⟨6, _⟩ => ⟨S_, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S1000000x1, .i32⟩
  | .hbm, ⟨11, _⟩ => ⟨S1000000x128, .f32⟩
  | .hbm, ⟨12, _⟩ => ⟨S1000000x128, .f32⟩
  | .hbm, ⟨13, _⟩ => ⟨S1000000x128, .f32⟩
  | .hbm, ⟨14, _⟩ => ⟨S_, .f32⟩
  | .hbm, ⟨15, _⟩ => ⟨S1000000, .f32⟩
  | .hbm, ⟨16, _⟩ => ⟨S1000000, .f32⟩
  | .hbm, ⟨17, _⟩ => ⟨S_, .i32⟩
  | .hbm, ⟨18, _⟩ => ⟨S2, .i32⟩
  | .hbm, ⟨19, _⟩ => ⟨S_, .i32⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S_, .i32⟩
  | .hbm, ⟨32, _⟩ => ⟨S1000000, .i32⟩
  | .hbm, ⟨33, _⟩ => ⟨S2, .i32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000, .i32⟩
  | .hbm, ⟨43, _⟩ => ⟨S1000000, .f32⟩
  | .hbm, ⟨44, _⟩ => ⟨S1000000, .f32⟩
  | .hbm, ⟨45, _⟩ => ⟨S_, .f32⟩
  | .hbm, ⟨46, _⟩ => ⟨S_, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x128_S1000000_d1 : S1000000x128.ReducesTo [1] S1000000
  h_S_ : 0 < S_.numel
  bcast_S_S2 : S_.BroadcastsInDim S2 (![] : Fin 0 → Fin S2.rank)
  reducesTo_S1000000_S_d0 : S1000000.ReducesTo [0] S_
  gather_S2x128_S1000000x1_S1000000x128_1_0_n_n_0_1_1128_wf : GatherDims.WF S2x128 S1000000x1 S1000000x128 [1] [0] [] [0] [] 1 ![1, 128]
  scatter_S2_S1000000x1_S1000000_n_0_0_1_wf : ScatterDims.WF S2 S1000000x1 S1000000 [] [0] [0] 1
  gather_S2_S1000000x1_S1000000_n_0_n_n_0_1_1_wf : GatherDims.WF S2 S1000000x1 S1000000 [] [0] [] [0] [] 1 ![1]

variable [Facts₀]

def gather_S2x128_S1000000x1_S1000000x128_1_0_n_n_0_1_1128 : GatherDims S2x128 S1000000x1 S1000000x128 where
  offsetDims := [1]
  collapsedSliceDims := [0]
  operandBatchingDims := []
  startIndicesBatchingDims := []
  startIndexMap := [0]
  indexVectorDim := 1
  sliceSizes := ![1, 128]
  wf := gather_S2x128_S1000000x1_S1000000x128_1_0_n_n_0_1_1128_wf
def scatter_S2_S1000000x1_S1000000_n_0_0_1 : ScatterDims S2 S1000000x1 S1000000 where
  updateWindowDims := []
  insertedWindowDims := [0]
  scatterDimsToOperandDims := [0]
  indexVectorDim := 1
  wf := scatter_S2_S1000000x1_S1000000_n_0_0_1_wf
def gather_S2_S1000000x1_S1000000_n_0_n_n_0_1_1 : GatherDims S2 S1000000x1 S1000000 where
  offsetDims := []
  collapsedSliceDims := [0]
  operandBatchingDims := []
  startIndicesBatchingDims := []
  startIndexMap := [0]
  indexVectorDim := 1
  sliceSizes := ![1]
  wf := gather_S2_S1000000x1_S1000000_n_0_n_n_0_1_1_wf

class Facts : Prop extends Facts₀ where

variable [Facts]
-- ==== Proof.Spec.lean ====
/-
  The center-loss value, stated once over the three argument arrays.

  Row `i` of the feature array `f` (one million rows of 128 lanes) carries a label `t i`; `center` has one row per
  class (two classes).  The distance of row `i` is the Euclidean distance to the center row its label names
  (label `1` names row 1, any other label row 0).

  Two arrangements of the loss are written down here.
  * `kernelValue`: the rows are cut into 50 blocks of 20000; every block sums the distances of its class-0 rows and of
    its class-1 rows; the block sums are added up, each class total is divided by that class's size (the number of
    ones, and one million less that number), a class of size zero contributing zero, and the two quotients are added.
  * `refValue`: every row's distance is divided by the size of the row's own class, and the quotients are added up.
-/
import Idealize.ShloMosaic.PureOps.Ideal
import Idealize.ShloMosaic.Lib.ValueIdx

noncomputable section

namespace CenterLoss

open Idealize.ShloMosaic Idealize.ShloMosaic.ValueIdx

/-- The three argument arrays' shapes. -/
abbrev Feat : Shape := ⟨2, ![1000000, 128]⟩
abbrev Cent : Shape := ⟨2, ![2, 128]⟩
abbrev Lab : Shape := ⟨1, ![1000000]⟩

variable (f : Feat.Idx → EReal) (c : Cent.Idx → EReal) (t : Lab.Idx → BitVec 32)

/-- The squared distance of row `i` to center row `k`: the sum over the lanes of the squared differences. -/
def sqDist (i : Fin 1000000) (k : Fin 2) : EReal :=
  ∑ j : Fin 128, (f (ix2 i j) - c (ix2 k j)) * (f (ix2 i j) - c (ix2 k j))

/-- The distance of row `i` to the center its label names. -/
def dist (i : Fin 1000000) : EReal :=
  Ideal.sqrt (if t (ix1 i) = 1#32 then sqDist f c i 1 else sqDist f c i 0)

/-- Row `r` of block `b` is row `20000 b + r` of the array. -/
def row (b : Fin 50) (r : Fin 20000) : Fin 1000000 := ⟨b.val * 20000 + r.val, by omega⟩

/-- Block `b`'s sum of the distances of its rows not labelled `1`. -/
def part0 (b : Fin 50) : EReal :=
  ∑ r : Fin 20000, if t (ix1 (row b r)) = 1#32 then 0 else dist f c t (row b r)

/-- Block `b`'s sum of the distances of its rows labelled `1`. -/
def part1 (b : Fin 50) : EReal :=
  ∑ r : Fin 20000, if t (ix1 (row b r)) = 1#32 then dist f c t (row b r) else 0

/-- The sum of the labels read as signed integers: the number of ones when every label is `0` or `1`. -/
def ones : EReal := ∑ i : Fin 1000000, (((t (ix1 i)).toInt : ℝ) : EReal)

/-- The blockwise arrangement: class totals over class sizes, an empty class contributing zero. -/
def kernelValue : EReal :=
  (if Ideal.cmp .ogt (((1000000 : ℝ) : EReal) - ones t) 0 = 1
      then Ideal.div (∑ b : Fin 50, part0 f c t b) (((1000000 : ℝ) : EReal) - ones t) else 0)
  + (if Ideal.cmp .ogt (ones t) 0 = 1 then Ideal.div (∑ b : Fin 50, part1 f c t b) (ones t) else 0)

/-- How many rows carry the label `k`. -/
def count (k : BitVec 32) : ℕ := (Finset.univ.filter fun i : Fin 1000000 => t (ix1 i) = k).card

/-- The rowwise arrangement: each distance over the size of its own class (the size held in a 32-bit word and read
    back as a signed integer). -/
def refValue : EReal :=
  ∑ i : Fin 1000000, Ideal.div (dist f c t i) ((((BitVec.ofNat 32 (count t (t (ix1 i)))).toInt : ℝ)) : EReal)

end CenterLoss

end
-- ==== Proof.Algebra.lean ====
/-
  The two arrangements of the center loss agree when every entry of the arrays is a real number and every label
  is `0` or `1`.
-/
import proofs.«406500_j8151847928313_3_alg».proof.Proof.Spec
import Idealize.ShloMosaic.Lib.StableHlo.Predicate

noncomputable section

namespace CenterLoss

open Idealize.ShloMosaic Idealize.ShloMosaic.ValueIdx

/-- The coercion of a finite real sum is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A block and a row within it name exactly one row of the array. -/
def blockEquiv : Fin 50 × Fin 20000 ≃ Fin 1000000 where
  toFun p := row p.1 p.2
  invFun i := (⟨i.val / 20000, by omega⟩, ⟨i.val % 20000, by omega⟩)
  left_inv := by
    rintro ⟨⟨b, hb⟩, ⟨r, hr⟩⟩
    simp only [row]
    refine Prod.ext (Fin.ext ?_) (Fin.ext ?_) <;> simp only <;> omega
  right_inv := by
    rintro ⟨i, hi⟩
    simp only [row]
    refine Fin.ext ?_
    simp only
    omega

/-- Summing block by block is summing over all the rows. -/
theorem sum_blocks {M : Type*} [AddCommMonoid M] (g : Fin 1000000 → M) :
    ∑ b : Fin 50, ∑ r : Fin 20000, g (row b r) = ∑ i : Fin 1000000, g i := by
  rw [← Fintype.sum_prod_type' (fun b r => g (row b r))]
  exact Fintype.sum_equiv blockEquiv _ _ (fun _ => rfl)

/-- A squared distance of real rows is a nonnegative real. -/
theorem sqDist_real (f : Feat.Idx → EReal) (c : Cent.Idx → EReal)
    (hf : ∀ i, ∃ r : ℝ, f i = (r : EReal)) (hc : ∀ i, ∃ r : ℝ, c i = (r : EReal))
    (i : Fin 1000000) (k : Fin 2) : ∃ s : ℝ, 0 ≤ s ∧ sqDist f c i k = (s : EReal) := by
  choose F hF using hf
  choose C hC using hc
  refine ⟨∑ j : Fin 128, (F (ix2 i j) - C (ix2 k j)) * (F (ix2 i j) - C (ix2 k j)),
    Finset.sum_nonneg fun j _ => mul_self_nonneg _, ?_⟩
  unfold sqDist
  rw [coe_sum]
  refine Finset.sum_congr rfl fun j _ => ?_
  rw [hF, hC, ← EReal.coe_sub, ← EReal.coe_mul]

/-- Every distance is a real number. -/
theorem dist_real (f : Feat.Idx → EReal) (c : Cent.Idx → EReal) (t : Lab.Idx → BitVec 32)
    (hf : ∀ i, ∃ r : ℝ, f i = (r : EReal)) (hc : ∀ i, ∃ r : ℝ, c i = (r : EReal)) :
    ∃ d : Fin 1000000 → ℝ, ∀ i, dist f c t i = (d i : EReal) := by
  have key : ∀ i, ∃ d : ℝ, dist f c t i = (d : EReal) := by
    intro i
    unfold dist
    split_ifs
    · obtain ⟨s, hs, e⟩ := sqDist_real f c hf hc i 1
      exact ⟨Real.sqrt s, by rw [e, Ideal.sqrt_coe, if_neg (not_lt.mpr hs)]⟩
    · obtain ⟨s, hs, e⟩ := sqDist_real f c hf hc i 0
      exact ⟨Real.sqrt s, by rw [e, Ideal.sqrt_coe, if_neg (not_lt.mpr hs)]⟩
  choose d hd using key
  exact ⟨d, hd⟩

/-- The sum of the labels is the number of ones. -/
theorem ones_eq (t : Lab.Idx → BitVec 32) (ht : ∀ i, t i = 0#32 ∨ t i = 1#32) :
    ones t = (((count t 1#32 : ℕ) : ℝ) : EReal) := by
  unfold ones count
  rw [← Finset.sum_boole (fun i : Fin 1000000 => t (ix1 i) = 1#32) Finset.univ, coe_sum]
  refine Finset.sum_congr rfl fun i _ => ?_
  rcases ht (ix1 i) with h | h <;> rw [h] <;> simp

/-- The two classes together are all the rows. -/
theorem count_add (t : Lab.Idx → BitVec 32) (ht : ∀ i, t i = 0#32 ∨ t i = 1#32) :
    count t 0#32 + count t 1#32 = 1000000 := by
  unfold count
  have e : (Finset.univ.filter fun i : Fin 1000000 => t (ix1 i) = 0#32)
      = Finset.univ.filter fun i : Fin 1000000 => ¬ t (ix1 i) = 1#32 := by
    refine Finset.filter_congr fun i _ => ?_
    rcases ht (ix1 i) with h | h <;> rw [h] <;> decide
  rw [e, add_comm, Finset.card_filter_add_card_filter_not, Finset.card_univ, Fintype.card_fin]

/-- A class that has a member is not empty. -/
theorem count_pos (t : Lab.Idx → BitVec 32) (i : Fin 1000000) (k : BitVec 32) (h : t (ix1 i) = k) :
    0 < count t k :=
  Finset.card_pos.mpr ⟨i, Finset.mem_filter.mpr ⟨Finset.mem_univ _, h⟩⟩

/-- A class size fits a signed 32-bit word. -/
theorem count_lt (t : Lab.Idx → BitVec 32) (k : BitVec 32) : count t k < 2 ^ 31 := by
  refine lt_of_le_of_lt (Finset.card_le_univ _) ?_
  rw [Fintype.card_fin]; norm_num

/-- The guarded quotient by a class size is the real quotient (which is zero for an empty class). -/
theorem guard_div (S n : ℝ) (hn : 0 ≤ n) :
    (if Ideal.cmp .ogt (n : EReal) 0 = 1 then Ideal.div (S : EReal) (n : EReal) else 0)
      = ((S / n : ℝ) : EReal) := by
  rcases hn.eq_or_lt with h | h
  · subst h
    have : Ideal.cmp .ogt ((0 : ℝ) : EReal) 0 ≠ 1 := by simp [Ideal.cmp]
    rw [if_neg this]; simp
  · have : Ideal.cmp .ogt (n : EReal) 0 = 1 := by simp [Ideal.cmp, h]
    rw [if_pos this, Ideal.div_coe h.ne', ← EReal.coe_mul]
    congr 1; ring

/-- A row's distance over its class size, the size read back from a 32-bit word. -/
theorem ref_term (x : ℝ) (n : ℕ) (hn : 0 < n) (hn' : n < 2 ^ 31) :
    Ideal.div (x : EReal) ((((BitVec.ofNat 32 n).toInt : ℝ)) : EReal) = ((x / n : ℝ) : EReal) := by
  rw [StableHlo.Predicate.toInt_ofNat_small n hn', Int.cast_natCast,
    Ideal.div_coe (Nat.cast_pos.mpr hn).ne', ← EReal.coe_mul]
  congr 1; ring

theorem kernelValue_eq_refValue (f : Feat.Idx → EReal) (c : Cent.Idx → EReal) (t : Lab.Idx → BitVec 32)
    (hf : ∀ i, ∃ r : ℝ, f i = (r : EReal)) (hc : ∀ i, ∃ r : ℝ, c i = (r : EReal))
    (ht : ∀ i, t i = 0#32 ∨ t i = 1#32) :
    kernelValue f c t = refValue f c t := by
  obtain ⟨d, hd⟩ := dist_real f c t hf hc
  have hL : ∀ i : Fin 1000000, ¬ t (ix1 i) = 1#32 → t (ix1 i) = 0#32 := fun i h => (ht _).resolve_right h
  have hsum : ((count t 0#32 : ℕ) : ℝ) + ((count t 1#32 : ℕ) : ℝ) = 1000000 := by
    exact_mod_cast count_add t ht
  have hones : ones t = (((count t 1#32 : ℕ) : ℝ) : EReal) := ones_eq t ht
  have hsub : ((1000000 : ℝ) : EReal) - ones t = (((count t 0#32 : ℕ) : ℝ) : EReal) := by
    rw [hones, ← EReal.coe_sub]
    exact congrArg Real.toEReal (by linarith)
  have hp0 : ∑ b : Fin 50, part0 f c t b
      = ((∑ i : Fin 1000000, if t (ix1 i) = 1#32 then 0 else d i : ℝ) : EReal) := by
    unfold part0
    rw [sum_blocks (fun i => if t (ix1 i) = 1#32 then 0 else dist f c t i), coe_sum]
    refine Finset.sum_congr rfl fun i _ => ?_
    split_ifs
    · rfl
    · exact hd i
  have hp1 : ∑ b : Fin 50, part1 f c t b
      = ((∑ i : Fin 1000000, if t (ix1 i) = 1#32 then d i else 0 : ℝ) : EReal) := by
    unfold part1
    rw [sum_blocks (fun i => if t (ix1 i) = 1#32 then dist f c t i else 0), coe_sum]
    refine Finset.sum_congr rfl fun i _ => ?_
    split_ifs
    · exact hd i
    · rfl
  have href : refValue f c t
      = ((∑ i : Fin 1000000, if t (ix1 i) = 1#32 then d i / ((count t 1#32 : ℕ) : ℝ)
          else d i / ((count t 0#32 : ℕ) : ℝ) : ℝ) : EReal) := by
    unfold refValue
    rw [coe_sum]
    refine Finset.sum_congr rfl fun i _ => ?_
    rw [hd]
    by_cases h : t (ix1 i) = 1#32
    · rw [if_pos h, h]
      exact ref_term _ _ (count_pos t i _ h) (count_lt t _)
    · rw [if_neg h, hL i h]
      exact ref_term _ _ (count_pos t i _ (hL i h)) (count_lt t _)
  unfold kernelValue
  rw [hsub, hones, hp0, hp1, guard_div _ _ (Nat.cast_nonneg _), guard_div _ _ (Nat.cast_nonneg _), href,
    ← EReal.coe_add]
  refine congrArg Real.toEReal ?_
  rw [Finset.sum_div, Finset.sum_div, ← Finset.sum_add_distrib]
  refine Finset.sum_congr rfl fun i _ => ?_
  split_ifs
  · rw [zero_div, zero_add]
  · rw [zero_div, add_zero]

end CenterLoss

end
-- ==== Proof.PreFacts.lean ====
/-
  What the precondition says of the three argument arrays: every entry of the feature array and of the center
  array is a real number (its absolute value is below `+∞`), and every label is `0` or `1` (at least `0` and
  below `2` as a signed word).
-/
import proofs.«406500_j8151847928313_3_alg».proof.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace CenterLoss

open Idealize.ShloMosaic Idealize.ShloMosaic.ValueIdx

/-- The single-precision pattern `0x7F800000` denotes `+∞`. -/
theorem ofBits_inf : Ideal.ofBits .f32 0x7F800000#32 = (⊤ : EReal) := by simp [Ideal.ofBits, Ideal.ieee]

/-- An extended real whose absolute value `max x (-x)` is below `+∞` is neither infinity: it is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison word `|x| < +∞` being `1` says that `x` is a real number. -/
theorem real_of_cmpf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  simp only [Ideal.cmp] at h'
  by_cases hlt : max x (-x) < ⊤
  · exact real_of_abs_lt_top x hlt
  · rw [decide_eq_false hlt] at h'
    exact absurd h' (by decide)

/-- A signed word that is at least `0` and below `2` is `0` or `1`. -/
theorem label_of_cmpi (v : BitVec 32) (h0 : IntOp.cmpi .sge v 0#32 = 1#1) (h2 : IntOp.cmpi .slt v 2#32 = 1#1) :
    v = 0#32 ∨ v = 1#32 := by
  rw [IntOp.cmpi_sge] at h0
  rw [IntOp.cmpi_slt] at h2
  have e0 : (0#32 : BitVec 32).toInt = 0 := by decide
  have e1 : (1#32 : BitVec 32).toInt = 1 := by decide
  have e2 : (2#32 : BitVec 32).toInt = 2 := by decide
  rw [e0] at h0
  rw [e2] at h2
  have hv : v.toInt = 0 ∨ v.toInt = 1 := by omega
  rcases hv with hv | hv
  · exact Or.inl (BitVec.eq_of_toInt_eq (by rw [hv, e0]))
  · exact Or.inr (BitVec.eq_of_toInt_eq (by rw [hv, e1]))

/-- The rank-0 shape has one index. -/
instance subsingleton_scalar_idx : Subsingleton Cert.Pre_finite_inputs.S_.Idx := ⟨fun a b => funext fun d => d.elim0⟩

theorem pre_decode [Cert.Pre_finite_inputs.Facts]
    (f : FVec Ideal Cert.Pre_finite_inputs.S1000000x128 .f32) (c : FVec Ideal Cert.Pre_finite_inputs.S2x128 .f32)
    (t : IVec Cert.Pre_finite_inputs.S1000000 32)
    (h : Cert.Pre_finite_inputs.fn (F := Ideal) f c t = fun _ => 1#1) :
    (∀ i, ∃ r : ℝ, f i = (r : EReal)) ∧ (∀ i, ∃ r : ℝ, c i = (r : EReal)) ∧ (∀ i, t i = 0#32 ∨ t i = 1#32) := by
  have h0 := congrFun h ValueIdx.ix0
  dsimp only [Cert.Pre_finite_inputs.fn] at h0
  obtain ⟨hfc, ht⟩ := IntOp.andi_eq_one.1 h0
  obtain ⟨hf, hc⟩ := IntOp.andi_eq_one.1 hfc
  refine ⟨fun i => ?_, fun i => ?_, fun i => ?_⟩
  · exact real_of_cmpf (f i) (Host.reduce_andi_all _ _ _ _ _ hf i)
  · exact real_of_cmpf (c i) (Host.reduce_andi_all _ _ _ _ _ hc i)
  · obtain ⟨a, b⟩ := IntOp.andi_eq_one.1 (Host.reduce_andi_all _ _ _ _ _ ht i)
    exact label_of_cmpi (t i) a b

end CenterLoss

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.KernelBody.lean ====
/-
  The kernel body's arithmetic, read at an index over the extended reals.

  The body loads a block of 20000 rows of 128 lanes, the rows' labels as a column, and the two center rows.  For each
  row it sums the squared differences to either center over the lanes, keeps the sum its label names (label `1`
  the second center, any other label the first), takes the square root, and sums the roots over the rows twice:
  once over the rows not labelled `1` and once over the rows labelled `1`.
-/
import proofs.«406500_j8151847928313_3_alg».proof.Proof.Gen.KernelIdeal.Skeleton
import proofs.«406500_j8151847928313_3_alg».proof.Proof.LibRowCasts
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Predicate

noncomputable section

namespace CenterLoss.Body

open Idealize.ShloMosaic Idealize.ShloMosaic.ValueIdx Cert.KernelIdeal Cert.KernelIdeal.Gen

/-- Row `r` of the block against center row `k`: the lane sum of the squared differences. -/
def rowSq (x0 : FVec Ideal S20000x128 .f32) (x3 : FVec Ideal S2x128 .f32) (r : Fin 20000) (k : Fin 2) : EReal :=
  ∑ j : Fin 128, (x0 (ix2 r j) - x3 (ix2 k j)) * (x0 (ix2 r j) - x3 (ix2 k j))

/-- Row `r`'s distance to the center its label names. -/
def rowDist (x0 : FVec Ideal S20000x128 .f32) (x1 : IVec S20000x1 32) (x3 : FVec Ideal S2x128 .f32) (r : Fin 20000) : EReal :=
  Ideal.sqrt (if x1 (ix2 r (0 : Fin 1)) = 1#32 then rowSq x0 x3 r 1 else rowSq x0 x3 r 0)

/-- The lane reduction of the squared differences to the center row cut out at offset `off`, read at row `r`. -/
theorem laneSum_apply (x0 : FVec Ideal S20000x128 .f32) (x3 : FVec Ideal S2x128 .f32) (k : Fin 2) (off : Fin 2 → ℕ)
    (hs : S2x128.Slices off S1x128) (h0 : off 0 = k.val) (h1 : off 1 = 0)
    (hacc : (0x00000000#32 : BitVec 32) = 0x00000000#32) (r : Fin 20000) :
    multiReduction .add [1] S20000
      (mulf (subf x0 (broadcastTo S20000x128 (extractStridedSlice S1x128 off x3 hs) broadcasts_S1x128_S20000x128))
        (subf x0 (broadcastTo S20000x128 (extractStridedSlice S1x128 off x3 hs) broadcasts_S1x128_S20000x128)))
      0x00000000#32 reduces_S20000x128_S20000 (.inl rfl) hacc (ix1 r)
    = rowSq x0 x3 r k := by
  refine (Ideal.multiReduction_add_single _ 0x00000000#32 reduces_S20000x128_S20000 (.inl rfl) hacc (ix1 r)).trans ?_
  unfold rowSq
  refine Finset.sum_congr rfl fun j _ => ?_
  have hl : reduces_S20000x128_S20000.lift (ix1 r) j = ix2 r j :=
    funext fun a => Fin.ext (by match a with | ⟨0, _⟩ => rfl | ⟨1, _⟩ => rfl)
  rw [hl]
  have hb : broadcastTo S20000x128 (extractStridedSlice S1x128 off x3 hs) broadcasts_S1x128_S20000x128 (ix2 r j)
      = x3 (ix2 k j) := by
    refine (broadcastTo_1b_ab_apply _ broadcasts_S1x128_S20000x128 r j).trans ?_
    refine extractStridedSlice_apply off x3 hs _ _ fun a => ?_
    match a with
    | ⟨0, _⟩ => exact h0.symm ▸ rfl
    | ⟨1, _⟩ => exact h1.symm ▸ (Nat.zero_add _).symm
  exact congrArg (fun z => (x0 (ix2 r j) - z) * (x0 (ix2 r j) - z)) hb

/-- The label mask at row `r`: set exactly when the label is the word `1`. -/
theorem mask_apply (x1 : Vec Ideal S20000x1 .i32) (r : Fin 20000) :
    k0_pay1 (F := Ideal) x1 (ix2 r (0 : Fin 1)) = 1#1 ↔ x1 (ix2 r (0 : Fin 1)) = 1#32 := by
  unfold k0_pay1
  rw [shapeCast_self]
  exact StableHlo.Predicate.cmpi_eq_iff

/-- The root of the selected lane sum, read at row `r`: the row's distance. -/
theorem dist_apply (x0 : FVec Ideal S20000x128 .f32) (x1 : Vec Ideal S20000x1 .i32) (x3 : FVec Ideal S2x128 .f32)
    (r : Fin 20000) :
    k0_pay2 (F := Ideal) x0 x1 x3 (ix2 r (0 : Fin 1)) = rowDist x0 x1 x3 r := by
  unfold k0_pay2 rowDist
  dsimp only
  show Ideal.sqrt (Scalar.select (k0_pay1 (F := Ideal) x1 (ix2 r (0 : Fin 1))) _ _) = _
  refine congrArg Ideal.sqrt ?_
  unfold Scalar.select
  refine if_congr (mask_apply x1 r) ?_ ?_
  · refine (RowCasts.shapeCast_column_apply _ shapeCasts_S20000_S20000x1 r 0).trans ?_
    exact laneSum_apply x0 x3 1 ![1, 0] slices_S2x128_o1_0_S1x128 rfl rfl rfl r
  · refine (RowCasts.shapeCast_column_apply _ shapeCasts_S20000_S20000x1 r 0).trans ?_
    exact laneSum_apply x0 x3 0 ![0, 0] slices_S2x128_o0_0_S1x128 rfl rfl rfl r

/-- The block's sum of the distances of its rows not labelled `1`. -/
def blockSum0 (x0 : FVec Ideal S20000x128 .f32) (x1 : IVec S20000x1 32) (x3 : FVec Ideal S2x128 .f32) : EReal :=
  ∑ r : Fin 20000, if x1 (ix2 r (0 : Fin 1)) = 1#32 then 0 else rowDist x0 x1 x3 r

/-- The block's sum of the distances of its rows labelled `1`. -/
def blockSum1 (x0 : FVec Ideal S20000x128 .f32) (x1 : IVec S20000x1 32) (x3 : FVec Ideal S2x128 .f32) : EReal :=
  ∑ r : Fin 20000, if x1 (ix2 r (0 : Fin 1)) = 1#32 then rowDist x0 x1 x3 r else 0

/-- A one-entry vector cast to `[1, 1]` and then to `[1, 1, 1]` holds, at its one index, the vector's entry. -/
theorem unitCasts_apply (v : FVec Ideal S1 .f32) (j : S1x1x1.Idx) :
    shapeCast S1x1x1 (shapeCast S1x1 v shapeCasts_S1_S1x1) shapeCasts_S1x1_S1x1x1 j = v (ix1 (0 : Fin 1)) := by
  have j0 : (j 0).val = 0 := by have h : (j 0).val < 1 := (j 0).isLt; omega
  have j1 : (j 1).val = 0 := by have h : (j 1).val < 1 := (j 1).isLt; omega
  have j2 : (j 2).val = 0 := by have h : (j 2).val < 1 := (j 2).isLt; omega
  refine (shapeCast_apply _ shapeCasts_S1x1_S1x1x1 j (ix2 (0 : Fin 1) (0 : Fin 1)) ?_).trans
    (shapeCast_apply v shapeCasts_S1_S1x1 (ix2 (0 : Fin 1) (0 : Fin 1)) (ix1 (0 : Fin 1)) ?_)
  · rw [Shape.rowMajor_val_two, Shape.rowMajor_val_three, j0, j1, j2]; rfl
  · rw [Shape.rowMajor_val_one, Shape.rowMajor_val_two]; rfl

/-- The reduction over the rows of a column, read at its one index: the sum of the column's entries. -/
theorem rowSum_apply (col : FVec Ideal S20000x1 .f32) (hacc : (0x00000000#32 : BitVec 32) = 0x00000000#32) :
    multiReduction .add [0] S1 col 0x00000000#32 reduces_S20000x1_S1 (.inl rfl) hacc (ix1 (0 : Fin 1))
      = ∑ r : Fin 20000, col (ix2 r (0 : Fin 1)) := by
  refine (Ideal.multiReduction_add_single col 0x00000000#32 reduces_S20000x1_S1 (.inl rfl) hacc (ix1 (0 : Fin 1))).trans ?_
  refine Finset.sum_congr rfl fun r _ => ?_
  exact congrArg col (funext fun a => Fin.ext (by match a with | ⟨0, _⟩ => rfl | ⟨1, _⟩ => rfl))

/-- The first store's value: the block's sum over the rows not labelled `1`. -/
theorem store0_apply (x0 : FVec Ideal S20000x128 .f32) (x1 : Vec Ideal S20000x1 .i32) (x3 : FVec Ideal S2x128 .f32)
    (j : S1x1x1.Idx) :
    k0_pay3 (F := Ideal) x0 x1 x3 j = blockSum0 x0 x1 x3 := by
  unfold k0_pay3 blockSum0
  dsimp only
  refine (unitCasts_apply _ j).trans ?_
  refine (rowSum_apply _ rfl).trans ?_
  refine Finset.sum_congr rfl fun r _ => ?_
  show Scalar.select (k0_pay1 (F := Ideal) x1 (ix2 r (0 : Fin 1))) (Ideal.ofBits .f32 0x00000000#32)
      (k0_pay2 (F := Ideal) x0 x1 x3 (ix2 r (0 : Fin 1))) = _
  unfold Scalar.select
  rw [Ideal.ofBits_zero_f32, dist_apply]
  exact if_congr (mask_apply x1 r) rfl rfl

/-- The second store's value: the block's sum over the rows labelled `1`. -/
theorem store1_apply (x0 : FVec Ideal S20000x128 .f32) (x1 : Vec Ideal S20000x1 .i32) (x3 : FVec Ideal S2x128 .f32)
    (j : S1x1x1.Idx) :
    k0_pay4 (F := Ideal) x0 x1 x3 j = blockSum1 x0 x1 x3 := by
  unfold k0_pay4 blockSum1
  dsimp only
  refine (unitCasts_apply _ j).trans ?_
  refine (rowSum_apply _ rfl).trans ?_
  refine Finset.sum_congr rfl fun r _ => ?_
  show Scalar.select (k0_pay1 (F := Ideal) x1 (ix2 r (0 : Fin 1))) (k0_pay2 (F := Ideal) x0 x1 x3 (ix2 r (0 : Fin 1)))
      (Ideal.ofBits .f32 0x00000000#32) = _
  unfold Scalar.select
  rw [Ideal.ofBits_zero_f32, dist_apply]
  exact if_congr (mask_apply x1 r) rfl rfl

end CenterLoss.Body

end
-- ==== Proof.KernelValue.lean ====
/-
  What the kernel's launch leaves in its output array, and what the host operations after it compute from it.

  Grid point `b` (of 50) is handed rows `20000 b … 20000 b + 19999` of the feature array and of the label column and
  the whole center array, and writes back the pair (sum of its class-0 distances, sum of its class-1 distances) as
  row `b` of a `[50, 1, 2]` array.  The host then sums each column of that array, counts the ones among the labels,
  and forms the two guarded quotients and their sum.
-/
import proofs.«406500_j8151847928313_3_alg».proof.Proof.Gen.KernelIdeal.Frame
import proofs.«406500_j8151847928313_3_alg».proof.Proof.KernelBody
import proofs.«406500_j8151847928313_3_alg».proof.Proof.Spec
import Idealize.ShloMosaic.Lib.Pipeline.Value
import Idealize.ShloMosaic.Lib.ValueIdxRank1
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace CenterLoss.Kernel

open Idealize.ShloMosaic.ValueIdx Cert.KernelIdeal Cert.KernelIdeal.Gen CenterLoss.Body

variable (m : (ℓ : Loc nD τ sig) → Buf (Elt Ideal) ℓ) (ρ : Dev nD → PrngReg)

/-- The three argument arrays on core `c`. -/
abbrev fArr (c : Dev nD) : FVec Ideal S1000000x128 .f32 := m ((c : Thread nD τ).loc main_arg0)
abbrev cArr (c : Dev nD) : FVec Ideal S2x128 .f32 := m ((c : Thread nD τ).loc main_arg1)
abbrev tArr (c : Dev nD) : IVec S1000000 32 := m ((c : Thread nD τ).loc main_arg2)

/-- The three input blocks at grid point `t`. -/
abbrev fBlk (c : Dev nD) (t : Fin cfg0.N) : FVec Ideal S20000x128 .f32 := iblk m c 0 t
abbrev tBlk (c : Dev nD) (t : Fin cfg0.N) : IVec S20000x1 32 := iblk m c 1 t
abbrev cBlk (c : Dev nD) (t : Fin cfg0.N) : FVec Ideal S2x128 .f32 := iblk m c 2 t

/-- A grid point as a block number. -/
def blkOf (t : Fin cfg0.N) : Fin 50 := ⟨t.val, lt_of_lt_of_eq t.isLt (N_0 : cfg0.N = 50)⟩

/-- The block index maps over the grid: the row blocks move with the point, the center block stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The feature block at point `t` is rows `20000 t …` of the feature array. -/
theorem fBlk_apply (c : Dev nD) (t : Fin cfg0.N) (r : Fin 20000) (j : Fin 128) :
    fBlk m c t (ix2 r j) = fArr m c (ix2 (row (blkOf t) r) j) := by
  obtain ⟨e0, e1, -⟩ := idx_facts t
  show iblk m c 0 t (ix2 r j) = _
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 20000 + 1 * r.val = t.val * 20000 + r.val; rw [e0]; omega
  | ⟨1, _⟩ => show win0_0.index t (1 : Fin 2) * 128 + 1 * j.val = j.val; rw [e1]; omega

/-- The center block at every point is the center array. -/
theorem cBlk_apply (c : Dev nD) (t : Fin cfg0.N) (k : Fin 2) (j : Fin 128) :
    cBlk m c t (ix2 k j) = cArr m c (ix2 k j) := by
  obtain ⟨-, -, -, -, e0, e1, -⟩ := idx_facts t
  show iblk m c 2 t (ix2 k j) = _
  unfold iblk
  rw [View.read_apply]
  show V m c main_arg1 _ = _
  rw [V_main_arg1]
  refine congrArg (m ((c : Thread nD τ).loc main_arg1)) (funext fun a => Fin.ext ?_)
  match a with
  | ⟨0, _⟩ => show win0_2.index t (0 : Fin 2) * 2 + 1 * k.val = k.val; rw [e0]; omega
  | ⟨1, _⟩ => show win0_2.index t (1 : Fin 2) * 128 + 1 * j.val = j.val; rw [e1]; omega

/-- The label column the launch is handed is the label vector cast to a column. -/
theorem V_labels (c : Dev nD) :
    (V m c main_v0 : S1000000x1.Idx → BitVec 32) = shapeCast S1000000x1 (tArr m c) shapeCasts_S1000000_S1000000x1 := by
  show StableHlo.after hostOps0 (fun b => m (c, b)) (Proc.devRef .tc main_v0) = _
  after_results
  rfl

/-- The label block at point `t` is labels `20000 t …` of the label vector. -/
theorem tBlk_apply (c : Dev nD) (t : Fin cfg0.N) (r : Fin 20000) :
    tBlk m c t (ix2 r (0 : Fin 1)) = tArr m c (ix1 (row (blkOf t) r)) := by
  obtain ⟨-, -, e0, e1, -⟩ := idx_facts t
  show iblk m c 1 t (ix2 r (0 : Fin 1)) = _
  unfold iblk
  rw [View.read_apply]
  show V m c main_v0 _ = _
  have he : ((cfg0.win 1).blk t).view.emb (ix2 r (0 : Fin 1)) = ix2 (row (blkOf t) r) (0 : Fin 1) :=
    funext fun a => Fin.ext (by
      match a with
      | ⟨0, _⟩ => show win0_1.index t (0 : Fin 2) * 20000 + 1 * r.val = t.val * 20000 + r.val; rw [e0]; omega
      | ⟨1, _⟩ => show win0_1.index t (1 : Fin 2) * 1 + 1 * 0 = 0; rw [e1])
  rw [he, V_labels]
  exact RowCasts.shapeCast_column_apply _ shapeCasts_S1000000_S1000000x1 _ _

/-- A block whose rows are rows `20000 b …` of the arrays has the block sums of the specification. -/
theorem blockSums_of (x0 : FVec Ideal S20000x128 .f32) (x1 : IVec S20000x1 32) (x3 : FVec Ideal S2x128 .f32)
    (f : Feat.Idx → EReal) (cc : Cent.Idx → EReal) (tt : Lab.Idx → BitVec 32) (b : Fin 50)
    (h0 : ∀ r j, x0 (ix2 r j) = f (ix2 (row b r) j)) (h1 : ∀ r, x1 (ix2 r (0 : Fin 1)) = tt (ix1 (row b r)))
    (h3 : ∀ k j, x3 (ix2 k j) = cc (ix2 k j)) :
    blockSum0 x0 x1 x3 = part0 f cc tt b ∧ blockSum1 x0 x1 x3 = part1 f cc tt b := by
  have hd : ∀ r, rowDist x0 x1 x3 r = dist f cc tt (row b r) := by
    intro r
    unfold rowDist dist rowSq sqDist
    simp only [h0, h1, h3]
  constructor
  · unfold blockSum0 part0; simp only [h1, hd]
  · unfold blockSum1 part1; simp only [h1, hd]

theorem hz2 : (![0, 0] : Fin 2 → Nat) = fun _ => 0 := funext fun a => by fin_cases a <;> rfl

/-- The output buffer after the body: its first entry is the class-0 block sum, its second the class-1 block sum. -/
theorem out_apply (x0 : Vec Ideal S20000x128 .f32) (x1 : Vec Ideal S20000x1 .i32) (x3 : Vec Ideal S2x128 .f32)
    (y : S1x1x2.Idx) :
    out0_3 (F := Ideal) x0 x1 x3 y = if (y 2).val = 0 then blockSum0 x0 x1 x3 else blockSum1 x0 x1 x3 := by
  unfold out0_3
  simp only [View.ld_unit_zero (S := S20000x128) hz2, View.ld_unit_zero (S := S20000x1) hz2,
    View.ld_unit_zero (S := S2x128) hz2]
  refine View.canon_apply_of_pieces
    ((fun y : S1x1x2.Idx => if (y 2).val = 0 then blockSum0 x0 x1 x3 else blockSum1 x0 x1 x3) : Vec Ideal S1x1x2 .f32)
    _ ?_ y (cover0_3 _ _ y)
  intro p hp x
  rcases List.mem_cons.mp hp with rfl | hp
  · show k0_pay4 (F := Ideal) x0 x1 x3 x = _
    rw [store1_apply]
    have hx : (x 2).val < 1 := (x 2).isLt
    have e : ((r0_4.emb x) 2).val = 1 := by
      show (![0, 0, 1] : Fin 3 → ℕ) 2 + 1 * (x 2).val = 1
      show 1 + 1 * (x 2).val = 1
      omega
    exact (if_neg (by show ¬ ((r0_4.emb x) 2).val = 0; omega)).symm
  · obtain rfl := List.mem_singleton.mp hp
    show k0_pay3 (F := Ideal) x0 x1 x3 x = _
    rw [store0_apply]
    have hx : (x 2).val < 1 := (x 2).isLt
    have e : ((r0_3.emb x) 2).val = 0 := by
      show (![0, 0, 0] : Fin 3 → ℕ) 2 + 1 * (x 2).val = 0
      show 0 + 1 * (x 2).val = 0
      omega
    exact (if_pos (by show ((r0_3.emb x) 2).val = 0; exact e)).symm

/-- The output array after the launch: row `b` holds block `b`'s two sums. -/
def outArr (c : Dev nD) : Vec Ideal S50x1x2 .f32 := fun i =>
  if (i 2).val = 0 then part0 (fArr m c) (cArr m c) (tArr m c) ⟨(i 0).val, (i 0).isLt⟩
  else part1 (fArr m c) (cArr m c) (tArr m c) ⟨(i 0).val, (i 0).isLt⟩

/-- What point `t` writes back is block `t` of that array. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  funext y
  rw [View.read_apply]
  show out0_3 (F := Ideal) (fBlk m c t) (tBlk m c t) (cBlk m c t) y = outArr m c (((cfg0.win 3).blk t).view.emb y)
  rw [out_apply]
  obtain ⟨h0, h1⟩ := blockSums_of (fBlk m c t) (tBlk m c t) (cBlk m c t) (fArr m c) (cArr m c) (tArr m c) (blkOf t)
    (fBlk_apply m c t) (tBlk_apply m c t) (cBlk_apply m c t)
  rw [h0, h1]
  obtain ⟨-, -, -, -, -, -, e0, e1, e2⟩ := idx_facts t
  have hy0 : (y 0).val < 1 := (y 0).isLt
  have a2 : ((((cfg0.win 3).blk t).view.emb y) 2).val = (y 2).val := by
    show win0_3.index t (2 : Fin 3) * 2 + 1 * (y 2).val = (y 2).val; rw [e2]; omega
  have a0 : (⟨((((cfg0.win 3).blk t).view.emb y) 0).val, ((((cfg0.win 3).blk t).view.emb y) 0).isLt⟩ : Fin 50) = blkOf t :=
    Fin.ext (by show win0_3.index t (0 : Fin 3) * 1 + 1 * (y 0).val = t.val; rw [e0]; omega)
  unfold outArr
  rw [a0]
  exact if_congr (by rw [a2]) rfl rfl

/-- An index of the output array is in point `t`'s block iff each coordinate is in the block's range. -/
theorem mem_blk3 (t : Fin cfg0.N) (i : S50x1x2.Idx) :
    i ∈ ((cfg0.win 3).blk t).view.set ↔ ∀ a : Fin 3, win0_3.index t a * S1x1x2.size a ≤ (i a).val
      ∧ (i a).val < win0_3.index t a * S1x1x2.size a + S1x1x2.size a := by
  show i ∈ ((View.whole main_v1).slice (win0_3.rect t)).set ↔ _
  rw [View.set_slice_whole, Rect.mem_set_unit]
  exact Iff.rfl

/-- Every row of the output array is some point's block, so the array ends as `outArr`. -/
theorem final3 (c : Dev nD) : (dats m 0 c).arrAt 3 cfg0.N = outArr m c :=
  (dats m 0 c).arrAt_eq_of_cover 3 (outArr m c) (fun t _ => flushed_eq m c t) fun i => by
    have hi0 : (i 0).val < 50 := (i 0).isLt
    have hi1 : (i 1).val < 1 := (i 1).isLt
    have hi2 : (i 2).val < 2 := (i 2).isLt
    obtain ⟨-, -, -, -, -, -, e0, e1, e2⟩ :=
      idx_facts (⟨(i 0).val, lt_of_lt_of_eq hi0 (N_0 : cfg0.N = 50).symm⟩ : Fin cfg0.N)
    refine ⟨⟨(i 0).val, lt_of_lt_of_eq hi0 (N_0 : cfg0.N = 50).symm⟩, flush0_3 _, ?_⟩
    rw [mem_blk3]
    intro a
    match a with
    | ⟨0, _⟩ =>
      show win0_3.index _ (0 : Fin 3) * 1 ≤ (i 0).val ∧ (i 0).val < win0_3.index _ (0 : Fin 3) * 1 + 1
      rw [e0]; show (i 0).val * 1 ≤ (i 0).val ∧ (i 0).val < (i 0).val * 1 + 1; omega
    | ⟨1, _⟩ =>
      show win0_3.index _ (1 : Fin 3) * 1 ≤ (i 1).val ∧ (i 1).val < win0_3.index _ (1 : Fin 3) * 1 + 1
      rw [e1]; omega
    | ⟨2, _⟩ =>
      show win0_3.index _ (2 : Fin 3) * 2 ≤ (i 2).val ∧ (i 2).val < win0_3.index _ (2 : Fin 3) * 2 + 2
      rw [e2]; omega

/-- The float literal `1.0e6` is the real number one million. -/
theorem ofBits_million : Ideal.ofBits .f32 0x49742400#32 = ((1000000 : ℝ) : EReal) := by
  simp [Ideal.ofBits, Ideal.ieee, -EReal.coe_mul]; norm_num

/-- A sum over a rank-1 shape's indices is the sum over its coordinate range. -/
theorem sum_idx1 {n : ℕ} (g : (⟨1, ![n]⟩ : Shape).Idx → EReal) : ∑ j : (⟨1, ![n]⟩ : Shape).Idx, g j = ∑ i : Fin n, g (ix1 i) :=
  (Fintype.sum_equiv idxEquiv1.symm (fun i => g (ix1 i)) g (fun _ => rfl)).symm

/-- The host's sum of the labels converted to floats is `ones`. -/
theorem labelSum_apply (tt : IVec S1000000 32) (z : S_.Idx) :
    Host.reduceAdd (F := Ideal) (sitofp .f32 tt) (constant S_ .f32 0x00000000#32) reducesTo_S1000000_S_d0 h_S_ z
      = ones tt := by
  simp only [Host.reduceAdd, Ideal.hostReduceAdd_def]
  refine (Ideal.hostReduceAdd_total reducesTo_S1000000_S_d0 (fun b => b.elim0) _ _ z).trans ?_
  show Ideal.ofBits .f32 0x00000000#32 + _ = _
  rw [Ideal.ofBits_zero_f32, zero_add]
  exact sum_idx1 (n := 1000000) _

/-- The host's sum of one column of the output array, cut out at lane `k`: the sum over the blocks of that entry. -/
theorem colSum_apply (A : Vec Ideal S50x1x2 .f32) (k : Fin 2) (off : Fin 3 → ℕ) (hs : S50x1x2.Slices off S50x1x1)
    (h0 : off 0 = 0) (h1 : off 1 = 0) (h2 : off 2 = k.val) (z : S_.Idx) :
    Host.reduceAdd (F := Ideal) (fun i => shapeCast S50 (extractStridedSlice S50x1x1 off A hs) shapeCasts_S50x1x1_S50 i)
        (constant S_ .f32 0x00000000#32) reducesTo_S50_S_d0 h_S_ z
      = ∑ b : Fin 50, A (ix3 b (0 : Fin 1) k) := by
  simp only [Host.reduceAdd, Ideal.hostReduceAdd_def]
  refine (Ideal.hostReduceAdd_total reducesTo_S50_S_d0 (fun b => b.elim0) _ _ z).trans ?_
  show Ideal.ofBits .f32 0x00000000#32 + _ = _
  rw [Ideal.ofBits_zero_f32, zero_add]
  refine (sum_idx1 (n := 50) _).trans (Finset.sum_congr rfl fun b _ => ?_)
  refine (shapeCast_apply _ shapeCasts_S50x1x1_S50 (ix1 b) (ix3 b (0 : Fin 1) (0 : Fin 1)) ?_).trans ?_
  · rw [Shape.rowMajor_val_three, Shape.rowMajor_val_one]; show (b.val * 1 + 0) * 1 + 0 = b.val; omega
  · refine extractStridedSlice_apply off A hs _ _ fun a => ?_
    match a with
    | ⟨0, _⟩ => show b.val = off 0 + b.val; rw [h0]; omega
    | ⟨1, _⟩ => show 0 = off 1 + 0; rw [h1]
    | ⟨2, _⟩ => show k.val = off 2 + 0; rw [h2, Nat.add_zero]

/-- The last host operations at the one scalar index, over the three sums they consume (`N` the label sum, `T0` and
    `T1` the two column sums): two guarded quotients, added. -/
theorem tail_scalar (N T0 T1 : FVec Ideal S_ .f32) (z : S_.Idx) :
    addf (F := Ideal) (s := S_) (φ := .f32)
      ((StableHlo.TRef.of (T := ⟨S_, .f32⟩) main_v13).toBuf (Val := Elt Ideal)
        (select
          ((StableHlo.TRef.of (T := ⟨S_, .i1⟩) main_v11).ofBuf (Val := Elt Ideal)
            (cmpf (F := Ideal) .ogt (subf (F := Ideal) (constant (F := Ideal) S_ .f32 0x49742400#32) N) (constant (F := Ideal) S_ .f32 0x00000000#32)))
          ((StableHlo.TRef.of (T := ⟨S_, .f32⟩) main_v12).ofBuf (Val := Elt Ideal)
            (Host.divf (F := Ideal) T0 (subf (F := Ideal) (constant (F := Ideal) S_ .f32 0x49742400#32) N)))
          ((StableHlo.TRef.of (T := ⟨S_, .f32⟩) main_call0_v0).ofBuf (Val := Elt Ideal)
            ((StableHlo.TRef.of (T := ⟨S_, .f32⟩) main_call0_v0).toBuf (Val := Elt Ideal)
              (id ((StableHlo.TRef.of (T := ⟨S_, .f32⟩) main_cst_4).ofBuf (Val := Elt Ideal)
                (constant (F := Ideal) S_ .f32 0x00000000#32)))))))
      ((StableHlo.TRef.of (T := ⟨S_, .f32⟩) main_v16).toBuf (Val := Elt Ideal)
        (select
          ((StableHlo.TRef.of (T := ⟨S_, .i1⟩) main_v14).ofBuf (Val := Elt Ideal)
            (cmpf (F := Ideal) .ogt N (constant (F := Ideal) S_ .f32 0x00000000#32)))
          ((StableHlo.TRef.of (T := ⟨S_, .f32⟩) main_v15).ofBuf (Val := Elt Ideal) (Host.divf (F := Ideal) T1 N))
          ((StableHlo.TRef.of (T := ⟨S_, .f32⟩) main_call1_v0).ofBuf (Val := Elt Ideal)
            ((StableHlo.TRef.of (T := ⟨S_, .f32⟩) main_call1_v0).toBuf (Val := Elt Ideal)
              (id ((StableHlo.TRef.of (T := ⟨S_, .f32⟩) main_cst_6).ofBuf (Val := Elt Ideal)
                (constant (F := Ideal) S_ .f32 0x00000000#32)))))))
      z
    = (if Ideal.cmp .ogt (Ideal.ofBits .f32 0x49742400#32 - N z) (Ideal.ofBits .f32 0x00000000#32) = 1
        then Ideal.div (T0 z) (Ideal.ofBits .f32 0x49742400#32 - N z) else Ideal.ofBits .f32 0x00000000#32)
      + (if Ideal.cmp .ogt (N z) (Ideal.ofBits .f32 0x00000000#32) = 1
        then Ideal.div (T1 z) (N z) else Ideal.ofBits .f32 0x00000000#32) := rfl

/-- With the three sums at their values, that is the blockwise arrangement. -/
theorem tail_final (f : Feat.Idx → EReal) (cc : Cent.Idx → EReal) (tt : Lab.Idx → BitVec 32)
    (N T0 T1 : FVec Ideal S_ .f32) (z : S_.Idx) (hN : N z = ones tt)
    (hS0 : T0 z = ∑ b : Fin 50, part0 f cc tt b) (hS1 : T1 z = ∑ b : Fin 50, part1 f cc tt b) :
    (if Ideal.cmp .ogt (Ideal.ofBits .f32 0x49742400#32 - N z) (Ideal.ofBits .f32 0x00000000#32) = 1
        then Ideal.div (T0 z) (Ideal.ofBits .f32 0x49742400#32 - N z) else Ideal.ofBits .f32 0x00000000#32)
      + (if Ideal.cmp .ogt (N z) (Ideal.ofBits .f32 0x00000000#32) = 1
        then Ideal.div (T1 z) (N z) else Ideal.ofBits .f32 0x00000000#32)
    = kernelValue f cc tt := by
  rw [hN, hS0, hS1, Ideal.ofBits_zero_f32, ofBits_million]
  unfold kernelValue
  rfl

set_option maxHeartbeats 2000000 in
set_option maxRecDepth 8192 in
/-- The host operations after the launch compute the blockwise arrangement of the loss. -/
theorem tail_eq (c : Dev nD) :
    Pipeline.afterTail₀ cfgs (dats m) 0 (V0 m) [hostOps1, hostOps1_1, hostOps1_2, hostOps1_3, hostOps1_4] c main_v17
      = fun _ => kernelValue (fArr m c) (cArr m c) (tArr m c) := by
  have hW1 : Pipeline.withArrays (cfgs 0).spec c (V0 m c) (fun w => (dats m 0 c).arrAt w (cfgs 0).N) (Proc.tc.devRef main_v1)
      = outArr m c :=
    (Pipeline.withArrays_arr spec0 launch0.win.arr_inj c _ _ 3).trans (final3 m c)
  have hW2 : Pipeline.withArrays (cfgs 0).spec c (V0 m c) (fun w => (dats m 0 c).arrAt w (cfgs 0).N) (Proc.tc.devRef main_arg2)
      = tArr m c :=
    (Pipeline.withArrays_of_ne _ c (V0 m c) _ main_arg2
      (by exact (by decide : ∀ w, Pipeline.arrRef spec0 w ≠ main_arg2))).trans (V_main_arg2 m c)
  unfold Pipeline.afterTail₀
  simp only [hostOps1, hostOps1_1, hostOps1_2, hostOps1_3, hostOps1_4, List.flatten_cons, List.flatten_nil, List.append_nil,
    List.cons_append, List.nil_append]
  after_results_simp
  rw [hW1, hW2]
  funext z
  have hN := labelSum_apply (tArr m c) z
  have hS0 := colSum_apply (outArr m c) 0 ![0, 0, 0] slices_S50x1x2_S50x1x1_0_0_0 rfl rfl rfl z
  have hS1 := colSum_apply (outArr m c) 1 ![0, 0, 1] slices_S50x1x2_S50x1x1_0_0_1 rfl rfl rfl z
  have o0 : ∀ b : Fin 50, outArr m c (ix3 b (0 : Fin 1) (0 : Fin 2)) = part0 (fArr m c) (cArr m c) (tArr m c) b :=
    fun b => if_pos rfl
  have o1 : ∀ b : Fin 50, outArr m c (ix3 b (0 : Fin 1) (1 : Fin 2)) = part1 (fArr m c) (cArr m c) (tArr m c) b :=
    fun b => if_neg (by show ¬ (1 : ℕ) = 0; omega)
  simp only [o0, o1] at hS0 hS1
  generalize Host.reduceAdd (F := Ideal) (sitofp .f32 (tArr m c)) (constant S_ .f32 0x00000000#32) reducesTo_S1000000_S_d0 h_S_
    = N at hN ⊢
  generalize Host.reduceAdd (F := Ideal) (fun i => shapeCast S50 (extractStridedSlice S50x1x1 ![0, 0, 0] (outArr m c)
    slices_S50x1x2_S50x1x1_0_0_0) shapeCasts_S50x1x1_S50 i) (constant S_ .f32 0x00000000#32) reducesTo_S50_S_d0 h_S_ = T0 at hS0 ⊢
  generalize Host.reduceAdd (F := Ideal) (fun i => shapeCast S50 (extractStridedSlice S50x1x1 ![0, 0, 1] (outArr m c)
    slices_S50x1x2_S50x1x1_0_0_1) shapeCasts_S50x1x1_S50 i) (constant S_ .f32 0x00000000#32) reducesTo_S50_S_d0 h_S_ = T1 at hS1 ⊢
  exact (tail_scalar N T0 T1 z).trans (tail_final (fArr m c) (cArr m c) (tArr m c) N T0 T1 z hN hS0 hS1)

/-- The kernel's run, read: its result is the blockwise arrangement of the loss of its arguments, which end unchanged. -/
theorem run : θ_run defs (onTc (τ := τ) (main (F := Ideal))) ⟨m, fun _ => 0, ρ⟩ fun r => ∀ c : Dev nD,
      r.2.mem ((c.tc : Thread nD τ).loc main_v17) = (fun _ => kernelValue (fArr m c) (cArr m c) (tArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v17 (Pipeline.mem_restRefs_of main_v17 (by decide) (by decide))).trans (tail_eq m c),
       ((h c).1 0).trans (((dats m 0 c).arrAt_in 0 rfl _).trans ((A_eq m c 0).trans (V_main_arg0 m c))),
       ((h c).1 2).trans (((dats m 0 c).arrAt_in 2 rfl _).trans ((A_eq m c 2).trans (V_main_arg1 m c))),
       ((h c).2 main_arg2 (Pipeline.mem_restRefs_of main_arg2 (by decide) (by decide))).trans (W_main_arg2 m (dats m) c)⟩)
    (run_main m ρ)

end CenterLoss.Kernel

end
-- ==== Proof.LibScatterCount.lean ====
/-
  A scatter-add of ones into a vector counts.

  The operand is a vector of `K` words, the scatter indices a column of `N` words, every update the word `1`;
  update `n` is added at the position its index names.  When every index lies in `[0, K)`, entry `k` of the result
  is the operand's entry plus the number of updates whose index is `k`.
-/
import Idealize.ShloMosaic.PureOps
import Idealize.ShloMosaic.Lib.ValueIdx

namespace Idealize.ShloMosaic.ScatterCount

open Idealize.ShloMosaic Idealize.ShloMosaic.ValueIdx

/-- Folding a step that, at update position `n`, adds the word `1` to the entry `g n` names (and does nothing when it
    names none) over a list of update positions adds, at entry `i`, the number of listed positions that land at `i`. -/
theorem foldl_add_one {ι : Type} [DecidableEq ι] {M : ℕ} (g : Fin M → Option ι)
    (step : (ι → BitVec 32) → Fin M → ι → BitVec 32)
    (hsome : ∀ r n i, g n = some i → step r n = fun i' => if i' = i then IntOp.addi (r i) 1#32 else r i')
    (hnone : ∀ r n, g n = none → step r n = r)
    (L : List (Fin M)) (r : ι → BitVec 32) (i : ι) :
    (L.foldl step r) i = r i + BitVec.ofNat 32 (L.filter fun n => g n = some i).length := by
  induction L generalizing r with
  | nil => simp
  | cons n L ih =>
    rw [List.foldl_cons, ih]
    cases hg : g n with
    | none =>
      rw [hnone _ _ hg]
      simp [List.filter_cons, hg]
    | some i0 =>
      rw [hsome _ _ _ hg]
      by_cases h : i = i0
      · subst h
        simp [List.filter_cons, hg, IntOp.addi, BitVec.add_assoc, BitVec.ofNat_add, Nat.add_comm]
      · have h' : ¬ (some i0 = some i) := fun e => h (Option.some.inj e).symm
        simp [List.filter_cons, hg, h, h']

/-- The positions of `List.finRange M` that satisfy `p` number the cardinality of the filtered universe. -/
theorem length_filter_finRange {M : ℕ} (p : Fin M → Prop) [DecidablePred p] :
    ((List.finRange M).filter fun n => p n).length = (Finset.univ.filter p).card := by
  rw [Fin.univ_def]
  rfl

section Dims

variable {K N : ℕ}
  (wf : ScatterDims.WF (⟨1, ![K]⟩ : Shape) (⟨2, ![N, 1]⟩ : Shape) (⟨1, ![N]⟩ : Shape) [] [0] [0] 1)

/-- The attribute record of the counting scatter. -/
abbrev cdims : ScatterDims (⟨1, ![K]⟩ : Shape) (⟨2, ![N, 1]⟩ : Shape) (⟨1, ![N]⟩ : Shape) :=
  { updateWindowDims := [], insertedWindowDims := [0], scatterDimsToOperandDims := [0], indexVectorDim := 1, wf := wf }

/-- The start of update `j` on the operand's one axis is the index word of row `j`, read signed. -/
theorem start_eq (idx : IVec (⟨2, ![N, 1]⟩ : Shape) 32) (j : (⟨1, ![N]⟩ : Shape).Idx) (a : Fin 1) :
    (cdims wf).start j idx a = (idx (ix2 (j 0) (0 : Fin 1))).toInt := by
  obtain rfl : a = 0 := Subsingleton.elim _ _
  unfold ScatterDims.start
  rw [dif_pos (show (0 : Fin 1) ∈ (cdims wf).scatterDimsToOperandDims from List.mem_singleton.mpr rfl)]
  congr 2
  funext b
  refine Fin.ext ?_
  match b with
  | ⟨0, _⟩ =>
    unfold ScatterDims.siIdx
    rw [dif_neg Nat.zero_ne_one]
    unfold ScatterDims.siCoord
    simp only [Fin.val_cast]
    have e : ∀ X : Fin 1, (j X).val = (j 0).val := fun X => by
      obtain rfl : X = 0 := Subsingleton.elim _ _
      rfl
    exact e _
  | ⟨1, _⟩ => rfl

/-- The counting scatter has no window axes: the window coordinate is zero. -/
theorem window_eq (j : (⟨1, ![N]⟩ : Shape).Idx) (a : Fin 1) : (cdims wf).window j a = 0 := by
  obtain rfl : a = 0 := Subsingleton.elim _ _
  unfold ScatterDims.window
  rw [dif_neg]
  intro h
  have h2 : (0 : Fin 1) ∈ (List.finRange 1).filter (· ∉ [(0 : Fin 1)]) := h
  simp at h2

/-- Under the bounds, update `j` lands at the entry its index word names. -/
theorem resultIdx?_eq (idx : IVec (⟨2, ![N, 1]⟩ : Shape) 32)
    (hidx : ∀ n : Fin N, 0 ≤ (idx (ix2 n (0 : Fin 1))).toInt ∧ (idx (ix2 n (0 : Fin 1))).toInt < K)
    (j : (⟨1, ![N]⟩ : Shape).Idx) :
    (cdims wf).resultIdx? j idx
      = some (ix1 ⟨(idx (ix2 (j 0) (0 : Fin 1))).toInt.toNat, by have := hidx (j 0); omega⟩) := by
  have H : ∀ a, 0 ≤ (cdims wf).start j idx a + (cdims wf).window j a
      ∧ (cdims wf).start j idx a + (cdims wf).window j a < (⟨1, ![K]⟩ : Shape).size a := by
    intro a
    rw [start_eq, window_eq]
    obtain rfl : a = 0 := Subsingleton.elim _ _
    have := hidx (j 0)
    show 0 ≤ _ + ((0 : ℕ) : ℤ) ∧ _ + ((0 : ℕ) : ℤ) < (K : ℤ)
    omega
  unfold ScatterDims.resultIdx?
  rw [dif_pos H]
  congr 1
  funext a
  obtain rfl : a = 0 := Subsingleton.elim _ _
  refine Fin.ext ?_
  show ((cdims wf).start j idx 0 + ((cdims wf).window j 0 : ℤ)).toNat = _
  rw [start_eq, window_eq]
  simp only [Nat.cast_zero, add_zero]
  rfl

/-- Under the bounds, update `j` lands at entry `k` exactly when its index word is `k`. -/
theorem resultIdx?_eq_some_iff (idx : IVec (⟨2, ![N, 1]⟩ : Shape) 32)
    (hidx : ∀ n : Fin N, 0 ≤ (idx (ix2 n (0 : Fin 1))).toInt ∧ (idx (ix2 n (0 : Fin 1))).toInt < K)
    (j : (⟨1, ![N]⟩ : Shape).Idx) (k : Fin K) :
    (cdims wf).resultIdx? j idx = some (ix1 k) ↔ (idx (ix2 (j 0) (0 : Fin 1))).toInt = (k.val : ℤ) := by
  rw [resultIdx?_eq wf idx hidx j]
  have hb := hidx (j 0)
  constructor
  · intro h
    have h1 := congrFun (Option.some.inj h) 0
    have h2 : (idx (ix2 (j 0) (0 : Fin 1))).toInt.toNat = k.val := congrArg Fin.val h1
    omega
  · intro h
    congr 2
    refine Fin.ext ?_
    show (idx (ix2 (j 0) (0 : Fin 1))).toInt.toNat = k.val
    omega

end Dims

theorem scatter_addi_ones_apply {K N : ℕ}
    (wf : ScatterDims.WF (⟨1, ![K]⟩ : Shape) (⟨2, ![N, 1]⟩ : Shape) (⟨1, ![N]⟩ : Shape) [] [0] [0] 1)
    (x : (⟨1, ![K]⟩ : Shape).Idx → BitVec 32) (idx : IVec (⟨2, ![N, 1]⟩ : Shape) 32)
    (hidx : ∀ n : Fin N, 0 ≤ (idx (ix2 n (0 : Fin 1))).toInt ∧ (idx (ix2 n (0 : Fin 1))).toInt < K)
    (k : Fin K) :
    Host.scatter
        ({ updateWindowDims := [], insertedWindowDims := [0], scatterDimsToOperandDims := [0], indexVectorDim := 1,
           wf := wf } : ScatterDims (⟨1, ![K]⟩ : Shape) (⟨2, ![N, 1]⟩ : Shape) (⟨1, ![N]⟩ : Shape))
        IntOp.addi x idx (fun _ => 1#32) (ix1 k)
      = x (ix1 k)
        + BitVec.ofNat 32 (Finset.univ.filter fun n : Fin N => (idx (ix2 n (0 : Fin 1))).toInt = (k.val : ℤ)).card := by
  unfold Host.scatter
  refine (foldl_add_one (fun n => (cdims wf).resultIdx? ((⟨1, ![N]⟩ : Shape).rowMajor.symm n) idx) _ ?_ ?_ _ x (ix1 k)).trans ?_
  · intro r n i h
    simp only [h]
  · intro r n h
    simp only [h]
  congr 2
  rw [length_filter_finRange]
  refine Finset.card_nbij' (fun n => ((⟨1, ![N]⟩ : Shape).rowMajor.symm n) 0)
    (fun m => (⟨1, ![N]⟩ : Shape).rowMajor (ix1 m)) ?_ ?_ ?_ ?_
  · intro n hn
    have hn' := (Finset.mem_filter.1 hn).2
    exact Finset.mem_filter.2 ⟨Finset.mem_univ _, (resultIdx?_eq_some_iff wf idx hidx _ k).1 hn'⟩
  · intro m hm
    have hm' := (Finset.mem_filter.1 hm).2
    refine Finset.mem_filter.2 ⟨Finset.mem_univ _, (resultIdx?_eq_some_iff wf idx hidx _ k).2 ?_⟩
    rw [Equiv.symm_apply_apply]
    exact hm'
  · intro n _
    show (⟨1, ![N]⟩ : Shape).rowMajor (ix1 (((⟨1, ![N]⟩ : Shape).rowMajor.symm n) 0)) = n
    exact (congrArg (⟨1, ![N]⟩ : Shape).rowMajor (eq_ix1 ((⟨1, ![N]⟩ : Shape).rowMajor.symm n)).symm).trans
      (Equiv.apply_symm_apply _ n)
  · intro m _
    show ((⟨1, ![N]⟩ : Shape).rowMajor.symm ((⟨1, ![N]⟩ : Shape).rowMajor (ix1 m))) 0 = m
    rw [Equiv.symm_apply_apply]
    rfl

end Idealize.ShloMosaic.ScatterCount
-- ==== Proof.RefValue.lean ====
/-
  The reference program's result is the rowwise arrangement of the center loss.

  With every label `0` or `1`: the label is its own wrapped and clamped index; the gather of the center array
  reads the center row the label names; the scatter-add of ones counts each class; the gather of the counts reads
  the size of the row's own class; and the two float sums are plain sums.
-/
import proofs.«406500_j8151847928313_3_alg».proof.Proof.Gen.ReferenceIdeal.Read
import proofs.«406500_j8151847928313_3_alg».proof.Proof.Spec
import proofs.«406500_j8151847928313_3_alg».proof.Proof.LibScatterCount
import Idealize.ShloMosaic.Lib.ValueIdx
import Idealize.ShloMosaic.Lib.ValueIdxRank1
import Idealize.ShloMosaic.Lib.StableHlo.Predicate

noncomputable section

namespace CenterLoss.Reference

open Idealize.ShloMosaic Idealize.ShloMosaic.ValueIdx Cert.ReferenceIdeal Cert.ReferenceIdeal.Read

/-- The label wrapped (a negative label moved up by the class count) is the label. -/
theorem v4_eq (x2 : (⟨S1000000, .i32⟩ : BufTy).Contents (Elt Ideal)) (ht : ∀ i, x2 i = 0#32 ∨ x2 i = 1#32)
    (i : S1000000.Idx) : val_main_v4 (F := Ideal) x2 i = x2 i := by
  rw [val_main_v4_apply, val_main_v1_apply, val_main_v3_apply, val_main_v0_apply, val_main_c_apply,
    val_main_v2_apply, val_main_c_0_apply]
  rcases ht i with h | h <;> rw [h] <;> rfl

theorem v25_eq (x2 : (⟨S1000000, .i32⟩ : BufTy).Contents (Elt Ideal)) (ht : ∀ i, x2 i = 0#32 ∨ x2 i = 1#32)
    (i : S1000000.Idx) : val_main_v25 (F := Ideal) x2 i = x2 i := by
  rw [val_main_v25_apply, val_main_v22_apply, val_main_v24_apply, val_main_v21_apply, val_main_c_6_apply,
    val_main_v23_apply, val_main_c_7_apply]
  rcases ht i with h | h <;> rw [h] <;> rfl

theorem v17_eq (x2 : (⟨S1000000, .i32⟩ : BufTy).Contents (Elt Ideal)) (ht : ∀ i, x2 i = 0#32 ∨ x2 i = 1#32)
    (i : S1000000.Idx) : val_main_v17 (F := Ideal) x2 i = x2 i := by
  rw [val_main_v17_apply, val_main_v14_apply, val_main_v16_apply, val_main_v12_apply, val_main_call0_v1_apply,
    val_main_call0_v0_apply, val_main_c_2_apply, val_main_v13_apply, val_main_c_3_apply, val_main_v15_apply,
    val_main_c_4_apply]
  rcases ht i with h | h <;> rw [h] <;> rfl

/-- A start index read signed and clamped into `[0, 1]`, as a class. -/
def cls {w : Nat} (t : BitVec w) : Fin 2 := ⟨min t.toInt.toNat 1, by omega⟩

theorem cls_zero : cls 0#32 = 0 := by decide
theorem cls_one : cls 1#32 = 1 := by decide

local notation "dC" => gather_S2x128_S1000000x1_S1000000x128_1_0_n_n_0_1_1128

theorem gather_center {α : Type} {w : Nat} (x : S2x128.Idx → α) (idx : IVec S1000000x1 w) (p : Fin 1000000) (q : Fin 128) :
    Host.gather gather_S2x128_S1000000x1_S1000000x128_1_0_n_n_0_1_1128 x idx (ix2 p q)
      = x (ix2 (cls (idx (ix2 p (0 : Fin 1)))) q) := by
  unfold Host.gather
  congr 1
  funext a
  refine Fin.ext ?_
  match a with
  | ⟨0, _⟩ =>
    show GatherDims.start _ (ix2 p q) idx 0 + GatherDims.batchCoord _ (ix2 p q) 0 + GatherDims.offCoord _ (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dC).startIndexMap from List.mem_singleton.mpr rfl)]
    have hsi : (dC).siIdx (ix2 p q) ⟨List.idxOf (0 : Fin 2) (dC).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show GatherDims.start _ (ix2 p q) idx 1 + GatherDims.batchCoord _ (ix2 p q) 1 + GatherDims.offCoord _ (ix2 p q) 1 = _
    rw [GatherDims.batchCoord_eq_zero _ _ _ List.not_mem_nil]
    have hs : GatherDims.start dC (ix2 p q) idx 1 = 0 := by
      unfold GatherDims.start
      rw [dif_neg (show (1 : Fin 2) ∉ (dC).startIndexMap by decide)]
    rw [hs]
    have hk : (1 : Fin 2) ∈ (dC).sKept := (GatherDims.mem_sKept _ _).mpr ⟨by decide, List.not_mem_nil⟩
    unfold GatherDims.offCoord
    rw [dif_pos hk]
    simp only [Nat.add_zero, Nat.zero_add]
    rfl

theorem idx18_ix (n : Fin 1000000) : idx_main_v18 (ix2 n (0 : Fin 1)) = ix1 n := by
  funext a; match a with | ⟨0, _⟩ => rfl

theorem v18_eq (x2 : (⟨S1000000, .i32⟩ : BufTy).Contents (Elt Ideal)) (ht : ∀ i, x2 i = 0#32 ∨ x2 i = 1#32)
    (n : Fin 1000000) : val_main_v18 (F := Ideal) x2 (ix2 n (0 : Fin 1)) = x2 (ix1 n) := by
  rw [val_main_v18_apply, idx18_ix, v17_eq x2 ht]

theorem v26_eq (x2 : (⟨S1000000, .i32⟩ : BufTy).Contents (Elt Ideal)) (ht : ∀ i, x2 i = 0#32 ∨ x2 i = 1#32)
    (n : Fin 1000000) : val_main_v26 (F := Ideal) x2 (ix2 n (0 : Fin 1)) = x2 (ix1 n) := by
  rw [val_main_v26_apply, show idx_main_v26 (ix2 n (0 : Fin 1)) = ix1 n from idx18_ix n, v25_eq x2 ht]

theorem v5_eq (x2 : (⟨S1000000, .i32⟩ : BufTy).Contents (Elt Ideal)) (ht : ∀ i, x2 i = 0#32 ∨ x2 i = 1#32)
    (n : Fin 1000000) : val_main_v5 (F := Ideal) x2 (ix2 n (0 : Fin 1)) = x2 (ix1 n) := by
  rw [val_main_v5_apply, show idx_main_v5 (ix2 n (0 : Fin 1)) = ix1 n from idx18_ix n, v4_eq x2 ht]

/-- The scatter-add of ones counts the rows of each class. -/
theorem v20_eq (x2 : (⟨S1000000, .i32⟩ : BufTy).Contents (Elt Ideal)) (ht : ∀ i, x2 i = 0#32 ∨ x2 i = 1#32)
    (t : BitVec 32) (h01 : t = 0#32 ∨ t = 1#32) :
    val_main_v20 (F := Ideal) x2 (ix1 (cls t)) = BitVec.ofNat 32 (CenterLoss.count x2 t) := by
  unfold val_main_v20
  have h19 : val_main_v19 (F := Ideal) = fun _ => 1#32 := by
    funext i; rw [val_main_v19_apply, val_main_c_5_apply]
  rw [h19]
  unfold scatter_S2_S1000000x1_S1000000_n_0_0_1
  rw [ScatterCount.scatter_addi_ones_apply _ _ _ (fun n => by
    rw [v18_eq x2 ht]; rcases ht (ix1 n) with h | h <;> rw [h] <;> decide)]
  rw [val_main_v11_apply, val_main_c_1_apply, BitVec.zero_add]
  refine congrArg (BitVec.ofNat 32) ?_
  unfold CenterLoss.count
  refine congrArg Finset.card ?_
  refine Finset.filter_congr fun n _ => ?_
  rw [v18_eq x2 ht]
  rcases h01 with h | h <;> rw [h] <;> rcases ht (ix1 n) with h' | h' <;> rw [h'] <;> decide

theorem gather_count {α : Type} {w : Nat} (x : S2.Idx → α) (idx : IVec S1000000x1 w) (p : Fin 1000000) :
    Host.gather gather_S2_S1000000x1_S1000000_n_0_n_n_0_1_1 x idx (ix1 p) = x (ix1 (cls (idx (ix2 p (0 : Fin 1))))) := by
  have hix : StableHlo.Predicate.ixP p = ix2 p (0 : Fin 1) := by
    funext a; match a with | ⟨0, _⟩ => rfl | ⟨1, _⟩ => rfl
  rw [show (ix1 p : S1000000.Idx) = Shape.Idx.ofFin p from Shape.Idx.eq_ofFin (ix1 p)]
  rw [StableHlo.Predicate.gather_take _ rfl rfl rfl rfl x idx p (by decide)]
  refine congrArg x ?_
  funext a
  match a with
  | ⟨0, _⟩ =>
    refine Fin.ext ?_
    show min (idx (StableHlo.Predicate.ixP p)).toInt.toNat (2 - 1) = min (idx (ix2 p (0 : Fin 1))).toInt.toNat 1
    rw [hix]

theorem idx9_ix (i : Fin 1000000) (j : Fin 128) : idx_main_v9 (ix1 i) j = ix2 i j := by
  funext a; match a with | ⟨0, _⟩ => rfl | ⟨1, _⟩ => rfl

/-- The gather of the center array reads the center row the label names. -/
theorem v6_eq (x1 : (⟨S2x128, .f32⟩ : BufTy).Contents (Elt Ideal))
    (x2 : (⟨S1000000, .i32⟩ : BufTy).Contents (Elt Ideal)) (ht : ∀ i, x2 i = 0#32 ∨ x2 i = 1#32)
    (i : Fin 1000000) (j : Fin 128) :
    val_main_v6 (F := Ideal) x1 x2 (ix2 i j) = x1 (ix2 (cls (x2 (ix1 i))) j) := by
  unfold val_main_v6
  rw [gather_center, v5_eq x2 ht]

theorem v9_eq (x0 : (⟨S1000000x128, .f32⟩ : BufTy).Contents (Elt Ideal)) (x1 : (⟨S2x128, .f32⟩ : BufTy).Contents (Elt Ideal))
    (x2 : (⟨S1000000, .i32⟩ : BufTy).Contents (Elt Ideal)) (ht : ∀ i, x2 i = 0#32 ∨ x2 i = 1#32) (i : Fin 1000000) :
    val_main_v9 (F := Ideal) x0 x1 x2 (ix1 i) = CenterLoss.sqDist x0 x1 i (cls (x2 (ix1 i))) := by
  rw [val_main_v9_apply, val_main_cst_apply, Ideal.ofBits_def, Ideal.ofBits_zero_f32, zero_add]
  unfold CenterLoss.sqDist
  refine Finset.sum_congr rfl fun j _ => ?_
  rw [idx9_ix, val_main_v8_apply, val_main_v7_apply, v6_eq x1 x2 ht]
  rfl

theorem v10_eq (x0 : (⟨S1000000x128, .f32⟩ : BufTy).Contents (Elt Ideal)) (x1 : (⟨S2x128, .f32⟩ : BufTy).Contents (Elt Ideal))
    (x2 : (⟨S1000000, .i32⟩ : BufTy).Contents (Elt Ideal)) (ht : ∀ i, x2 i = 0#32 ∨ x2 i = 1#32) (i : Fin 1000000) :
    val_main_v10 (F := Ideal) x0 x1 x2 (ix1 i) = CenterLoss.dist x0 x1 x2 i := by
  rw [val_main_v10_apply, v9_eq x0 x1 x2 ht, Ideal.hostUnary_sqrt_def]
  unfold CenterLoss.dist
  rcases ht (ix1 i) with h | h <;> rw [h]
  · rw [cls_zero, if_neg (by decide)]
  · rw [cls_one, if_pos rfl]

/-- The gather of the counts reads the size of the row's own class. -/
theorem v27_eq (x2 : (⟨S1000000, .i32⟩ : BufTy).Contents (Elt Ideal)) (ht : ∀ i, x2 i = 0#32 ∨ x2 i = 1#32)
    (i : Fin 1000000) :
    val_main_v27 (F := Ideal) x2 (ix1 i) = BitVec.ofNat 32 (CenterLoss.count x2 (x2 (ix1 i))) := by
  unfold val_main_v27
  rw [gather_count, v26_eq x2 ht, v20_eq x2 ht _ (ht _)]

theorem v28_eq (x2 : (⟨S1000000, .i32⟩ : BufTy).Contents (Elt Ideal)) (ht : ∀ i, x2 i = 0#32 ∨ x2 i = 1#32)
    (i : Fin 1000000) :
    val_main_v28 (F := Ideal) x2 (ix1 i)
      = ((((BitVec.ofNat 32 (CenterLoss.count x2 (x2 (ix1 i)))).toInt : ℝ)) : EReal) := by
  rw [val_main_v28_apply, v27_eq x2 ht]
  rfl

theorem result_eq (x0 : (⟨S1000000x128, .f32⟩ : BufTy).Contents (Elt Ideal)) (x1 : (⟨S2x128, .f32⟩ : BufTy).Contents (Elt Ideal))
    (x2 : (⟨S1000000, .i32⟩ : BufTy).Contents (Elt Ideal)) (ht : ∀ i, x2 i = 0#32 ∨ x2 i = 1#32) :
    val_main_v30 (F := Ideal) x0 x1 x2 = fun _ => CenterLoss.refValue x0 x1 x2 := by
  funext z
  rw [val_main_v30_apply, val_main_cst_8_apply, Ideal.ofBits_def, Ideal.ofBits_zero_f32, zero_add]
  unfold CenterLoss.refValue
  refine Fintype.sum_equiv idxEquiv1 _ _ fun j => ?_
  obtain ⟨i, rfl⟩ : ∃ i, j = ix1 i := ⟨j 0, eq_ix1 j⟩
  show val_main_v29 (F := Ideal) x0 x1 x2 (ix1 i)
    = Ideal.div (CenterLoss.dist x0 x1 x2 i) ((((BitVec.ofNat 32 (CenterLoss.count x2 (x2 (ix1 i)))).toInt : ℝ)) : EReal)
  rw [val_main_v29_apply, Ideal.hostDivf_def, v10_eq x0 x1 x2 ht, v28_eq x2 ht]

end CenterLoss.Reference

end
-- ==== Proof.lean ====
/-
  The certificate of the center-loss kernel against its reference, over the extended reals.

  Under the precondition every entry of the feature and center arrays is a real number and every label is `0` or
  `1`.  The kernel sums, block by block, the distances of the class-0 rows and of the class-1 rows to their class
  centers, and the host divides each class total by the class's size (an empty class contributing zero).  The
  reference divides every row's distance by the size of the row's own class and sums the quotients.  Both are the
  same real number: a sum of quotients with one divisor per class is the quotient of the class's sum.

  The kernel's result is read off its launch (block by block, then the host operations after it), the reference's
  off its run (operation by operation; its two gathers read the row the label names, its scatter-add of ones counts
  each class), and the two arrangements are joined in the real numbers.
-/
import proofs.«406500_j8151847928313_3_alg».proof.Defs
import proofs.«406500_j8151847928313_3_alg».proof.Proof.Gen.Kernel
import proofs.«406500_j8151847928313_3_alg».proof.Proof.Gen.Kernel.Skeleton
import proofs.«406500_j8151847928313_3_alg».proof.Proof.Gen.Kernel.Launch
import proofs.«406500_j8151847928313_3_alg».proof.Proof.Gen.Kernel.Points
import proofs.«406500_j8151847928313_3_alg».proof.Proof.Gen.Kernel.Frame
import proofs.«406500_j8151847928313_3_alg».proof.Proof.Gen.KernelIdeal
import proofs.«406500_j8151847928313_3_alg».proof.Proof.Gen.KernelIdeal.Skeleton
import proofs.«406500_j8151847928313_3_alg».proof.Proof.Gen.KernelIdeal.Launch
import proofs.«406500_j8151847928313_3_alg».proof.Proof.Gen.KernelIdeal.Points
import proofs.«406500_j8151847928313_3_alg».proof.Proof.Gen.KernelIdeal.Frame
import proofs.«406500_j8151847928313_3_alg».proof.Proof.Gen.ReferenceIdeal
import proofs.«406500_j8151847928313_3_alg».proof.Proof.Gen.Pre_finite_inputs
import proofs.«406500_j8151847928313_3_alg».proof.Proof.Gen.ReferenceIdeal.Run
import proofs.«406500_j8151847928313_3_alg».proof.Proof.Gen.ReferenceIdeal.Read
import proofs.«406500_j8151847928313_3_alg».proof.Proof.Spec
import proofs.«406500_j8151847928313_3_alg».proof.Proof.Algebra
import proofs.«406500_j8151847928313_3_alg».proof.Proof.PreFacts
import proofs.«406500_j8151847928313_3_alg».proof.Proof.KernelValue
import proofs.«406500_j8151847928313_3_alg».proof.Proof.RefValue
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the same number: the kernel's blockwise arrangement of the loss and the reference's rowwise
    one agree where every entry is real and every label is `0` or `1`, which the precondition gives. -/
theorem algebraic : Cert.algebraic_KernelIdeal_ReferenceIdeal := by
  intro m ρ m' ρ' hpre hagree
  refine ⟨fun c => fun _ => CenterLoss.kernelValue (CenterLoss.Kernel.fArr m c) (CenterLoss.Kernel.cArr m c)
    (CenterLoss.Kernel.tArr m c), CenterLoss.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hf, hc, ht⟩ := CenterLoss.pre_decode _ _ _ (hpre c)
  rw [(hagree c).1, (hagree c).2.1, (hagree c).2.2]
  refine (Cert.ReferenceIdeal.Read.val_main_v30_eq _ _ _).trans ?_
  rw [CenterLoss.Reference.result_eq _ _ _ ht]
  funext z
  exact (CenterLoss.kernelValue_eq_refValue _ _ _ hf hc ht).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
